-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  main_v23

def fn {F : FTy → Type} [FloatOps F] (main_arg0 : FVec F S4096x1024 .f32) (main_arg1 : FVec F S4x1024x1024 .f32) (main_arg2 : FVec F S4x1024x1024 .f32) (main_arg3 : FVec F S4x1024 .f32) (main_arg4 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S1024x1024 : Shape := ⟨2, ![1024, 1024]⟩
abbrev S4x512x1024 : Shape := ⟨3, ![4, 512, 1024]⟩
abbrev S4x512 : Shape := ⟨2, ![4, 512]⟩
abbrev S1024x512 : Shape := ⟨2, ![1024, 512]⟩
abbrev S512x1024 : Shape := ⟨2, ![512, 1024]⟩
abbrev S512 : Shape := ⟨1, ![512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .f32⟩
  | .hbm, ⟨2, _⟩ => ⟨S4x1024x1024, .f32⟩
  | .hbm, ⟨3, _⟩ => ⟨S4x1024, .f32⟩
  | .hbm, ⟨4, _⟩ => ⟨S4x1024, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S4x512x1024, .f32⟩
  | .local _ .vmem, ⟨3, _⟩ => ⟨S4x512x1024, .f32⟩
  | .local _ .vmem, ⟨4, _⟩ => ⟨S4x512x1024, .f32⟩
  | .local _ .vmem, ⟨5, _⟩ => ⟨S4x512x1024, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | .local _ .vmem, ⟨9, _⟩ => ⟨S4x512, .f32⟩
  | .local _ .vmem, ⟨10, _⟩ => ⟨S1024x512, .f32⟩
  | .local _ .vmem, ⟨11, _⟩ => ⟨S1024x512, .f32⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S4x512x1024_S4x512x1024_0_0_0 : ∀ a, (![0, 0, 0] : Fin 3 → Nat) a + S4x512x1024.size a ≤ S4x512x1024.size a
  h_S4x512x1024 : 0 < S4x512x1024.numel
  reduces_S4x512x1024_S512x1024 : S4x512x1024.Reduces [0] S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S4x512_S4x512_0_0 : ∀ a, (![0, 0] : Fin 2 → Nat) a + S4x512.size a ≤ S4x512.size a
  h_S4x512 : 0 < S4x512.numel
  reduces_S4x512_S512 : S4x512.Reduces [0] S512
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S4x1024x1024.size a
  hwx0_1 : ∀ i : grid0.Coords, EltTy.bits .f32 = 32 ∨ (Rect.block (s := S4x1024x1024) S4x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S4x1024x1024.size a
  hwx0_2 : ∀ i : grid0.Coords, EltTy.bits .f32 = 32 ∨ (Rect.block (s := S4x1024x1024) S4x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x1024.size a
  hwx0_3 : ∀ i : grid0.Coords, EltTy.bits .f32 = 32 ∨ (Rect.block (s := S4x1024) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x1024.size a
  hwx0_4 : ∀ i : grid0.Coords, EltTy.bits .f32 = 32 ∨ (Rect.block (s := S4x1024) S4x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x1024.size a
  hwx0_5 : ∀ i : grid0.Coords, EltTy.bits .f32 = 32 ∨ (Rect.block (s := S4096x1024) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S1024x1024 : Shape := ⟨2, ![1024, 1024]⟩
abbrev S4x512x512 : Shape := ⟨3, ![4, 512, 512]⟩
abbrev S512x512 : Shape := ⟨2, ![512, 512]⟩
abbrev S256x1024 : Shape := ⟨2, ![256, 1024]⟩
abbrev S512x1024 : Shape := ⟨2, ![512, 1024]⟩
abbrev S4x512 : Shape := ⟨2, ![4, 512]⟩
abbrev S256x512 : Shape := ⟨2, ![256, 512]⟩
abbrev S512 : Shape := ⟨1, ![512]⟩
abbrev S1x512 : Shape := ⟨2, ![1, 512]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .f32⟩
  | .hbm, ⟨2, _⟩ => ⟨S4x1024x1024, .f32⟩
  | .hbm, ⟨3, _⟩ => ⟨S4x1024, .f32⟩
  | .hbm, ⟨4, _⟩ => ⟨S4x1024, .f32⟩
  | .hbm, ⟨5, _⟩ => ⟨S1024x1024, .f32⟩
  | .hbm, ⟨6, _⟩ => ⟨S4096x1024, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S512x512, .f32⟩
  | .local _ .vmem, ⟨5, _⟩ => ⟨S512x512, .f32⟩
  | .local _ .vmem, ⟨6, _⟩ => ⟨S256x1024, .f32⟩
  | .local _ .vmem, ⟨7, _⟩ => ⟨S256x1024, .f32⟩
  | .local _ .vmem, ⟨8, _⟩ => ⟨S512x1024, .f32⟩
  | .local _ .vmem, ⟨9, _⟩ => ⟨S512x1024, .f32⟩
  | .local _ .vmem, ⟨10, _⟩ => ⟨S4x512, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | .local _ .vmem, ⟨14, _⟩ => ⟨S256x512, .f32⟩
  | .local _ .vmem, ⟨15, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![16, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S4x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S4x512x512_S4x512x512_0_0_0 : ∀ a, (![0, 0, 0] : Fin 3 → Nat) a + S4x512x512.size a ≤ S4x512x512.size a
  h_S4x512x512 : 0 < S4x512x512.numel
  reduces_S4x512x512_S512x512 : S4x512x512.Reduces [0] S512x512
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x512_S4x512_0_0 : ∀ a, (![0, 0] : Fin 2 → Nat) a + S4x512.size a ≤ S4x512.size a
  h_S4x512 : 0 < S4x512.numel
  reduces_S4x512_S512 : S4x512.Reduces [0] S512
  shapeCasts_S512_S1x512 : S512.ShapeCasts S1x512
  broadcasts_S1x512_S256x512 : S1x512.Broadcasts S256x512
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S4x1024x1024.size a
  hwx0_0 : ∀ i : grid0.Coords, EltTy.bits .f32 = 32 ∨ (Rect.block (s := S4x1024x1024) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x1024x1024.size a
  hwx0_1 : ∀ i : grid0.Coords, EltTy.bits .f32 = 32 ∨ (Rect.block (s := S4x1024x1024) S4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S1024x1024.size a
  hwx0_2 : ∀ i : grid0.Coords, EltTy.bits .f32 = 32 ∨ (Rect.block (s := S1024x1024) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S1024x1024.size a
  hwx1_1 : ∀ i : grid1.Coords, EltTy.bits .f32 = 32 ∨ (Rect.block (s := S1024x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x1024.size a
  hwx1_2 : ∀ i : grid1.Coords, EltTy.bits .f32 = 32 ∨ (Rect.block (s := S4x1024) S4x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512.size a ≤ S4x1024.size a
  hwx1_3 : ∀ i : grid1.Coords, EltTy.bits .f32 = 32 ∨ (Rect.block (s := S4x1024) S4x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S4096x1024.size a
  hwx1_4 : ∀ i : grid1.Coords, EltTy.bits .f32 = 32 ∨ (Rect.block (s := S4096x1024) S256x512.size (cc1_transform_4 i) (hinb1_4 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg1) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S4x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S256x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.KernelPieces.lean ====
/-
  What one grid point of the fused kernel leaves behind, as values, at any float instance.

  The kernel's grid is (stripe, tile). At the first tile of a stripe the body collapses the stripe's grouped weights
  into its scratch: the scratch then holds the collapsed block (a function of the two weight blocks alone). At every
  tile it writes the output block: the product of the `x` block with the scratch's contents plus the bias — at the
  first tile the scratch's contents are the block just stored, read back whole; at a later tile they are what the
  tile before left. Each buffer is loaded and stored whole, so a load reads the buffer's contents and the one
  covering store leaves its value.
-/
import proofs.«159003_g2000604218572491_pallasbulk_1250_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a stripe: the scratch ends at the collapsed weight block of the two weight blocks. -/
theorem scratch_A (c : Dev nD) (i : grid0.Coords) (a2 : Memref sig .tc .vmem S1024x1024 .f32) (h2 : a2.IsWhole)
    (a3 : Memref sig .tc .vmem S4x512x1024 .f32) (h3 : a3.IsWhole) (a4 : Memref sig .tc .vmem S4x512x1024 .f32) (h4 : a4.IsWhole)
    (a5 : Memref sig .tc .vmem S4x512 .f32) (h5 : a5.IsWhole) (a6 : Memref sig .tc .vmem S4x512 .f32) (h6 : a6.IsWhole)
    (a7 : Memref sig .tc .vmem S1024x512 .f32) (h7 : a7.IsWhole) (a8 : Memref sig .tc .vmem S512x1024 .bf16) (h8 : a8.IsWhole)
    (hc : cond0_0 i) (x0 : Vec F S1024x1024 .f32) (x1 x2 : Vec F S4x512x1024 .f32) (x3 x4 : Vec F S4x512 .f32) :
    sout0_A_0 c i a2 h2 a3 h3 a4 h4 a5 h5 a6 h6 a7 h7 a8 h8 hc x0 x1 x2 x3 x4 = k0_pay1 x1 x2 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h3.read_unread, h4.read_unread, View.ld_unit_zero (S := S4x512x1024) hz3]

/-- First tile of a stripe: the output block is the product against the block just collapsed, plus the bias. -/
theorem out_A (c : Dev nD) (i : grid0.Coords) (a2 : Memref sig .tc .vmem S1024x1024 .f32) (h2 : a2.IsWhole)
    (a3 : Memref sig .tc .vmem S4x512x1024 .f32) (h3 : a3.IsWhole) (a4 : Memref sig .tc .vmem S4x512x1024 .f32) (h4 : a4.IsWhole)
    (a5 : Memref sig .tc .vmem S4x512 .f32) (h5 : a5.IsWhole) (a6 : Memref sig .tc .vmem S4x512 .f32) (h6 : a6.IsWhole)
    (a7 : Memref sig .tc .vmem S1024x512 .f32) (h7 : a7.IsWhole) (a8 : Memref sig .tc .vmem S512x1024 .bf16) (h8 : a8.IsWhole)
    (hc : cond0_0 i) (x0 : Vec F S1024x1024 .f32) (x1 x2 : Vec F S4x512x1024 .f32) (x3 x4 : Vec F S4x512 .f32) :
    out0_A_5 c i a2 h2 a3 h3 a4 h4 a5 h5 a6 h6 a7 h7 a8 h8 hc x0 x1 x2 x3 x4 = k0_pay2 x3 x4 x0 (k0_pay1 x1 x2) := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h2.read_unread, h3.read_unread, h4.read_unread, h5.read_unread, h6.read_unread,
    View.ld_unit_zero (S := S4x512x1024) hz3, View.ld_unit_zero (S := S4x512) hz2, View.ld_unit_zero (S := S1024x1024) hz2,
    View.readCov_unit_zero (S := S512x1024) _ hz2]

/-- A later tile: the output block is the product against what the scratch held on entry, plus the bias. -/
theorem out_B (c : Dev nD) (i : grid0.Coords) (a2 : Memref sig .tc .vmem S1024x1024 .f32) (h2 : a2.IsWhole)
    (a3 : Memref sig .tc .vmem S4x512x1024 .f32) (h3 : a3.IsWhole) (a4 : Memref sig .tc .vmem S4x512x1024 .f32) (h4 : a4.IsWhole)
    (a5 : Memref sig .tc .vmem S4x512 .f32) (h5 : a5.IsWhole) (a6 : Memref sig .tc .vmem S4x512 .f32) (h6 : a6.IsWhole)
    (a7 : Memref sig .tc .vmem S1024x512 .f32) (h7 : a7.IsWhole) (a8 : Memref sig .tc .vmem S512x1024 .bf16) (h8 : a8.IsWhole)
    (hc : ¬cond0_0 i) (x0 : Vec F S1024x1024 .f32) (x1 x2 : Vec F S4x512x1024 .f32) (x3 x4 : Vec F S4x512 .f32)
    (xs : Vec F S512x1024 .bf16) :
    out0_B_5 c i a2 h2 a3 h3 a4 h4 a5 h5 a6 h6 a7 h7 a8 h8 hc x0 x1 x2 x3 x4 xs = k0_pay2 x3 x4 x0 xs := by
  unfold out0_B_5
  rw [View.read_writes_eq_canon _ _ _ (cover0_B_5 c i a2 h2 a3 h3 a4 h4 a5 h5 a6 h6 a7 h7 a8 h8 hc x0 x1 x2 x3 x4 xs)]
  unfold kernelRun0_B
  dsimp only
  sl_unfold_words
  rw [View.canon_unit_zero hz2]
  simp only [View.readAt_eq_ld, h2.read_unread, h5.read_unread, h6.read_unread, h8.read_unread,
    View.ld_unit_zero (S := S4x512) hz2, View.ld_unit_zero (S := S1024x1024) hz2, View.ld_unit_zero (S := S512x1024) hz2]

end Cert.KernelIdeal.Pieces

end
-- ==== Proof.Spec.lean ====
/-
  The common value of the two programs, over the extended reals.

  A linear layer whose weight and bias are each a sum over four groups of a data entry gated by the logistic of the
  negated mask logit:
      W[r, k] = Σ_g wd[g, r, k] · logistic (0 − wm[g, r, k])        (r, k < 1024)
      b[r]    = Σ_g bd[g, r]    · logistic (0 − bm[g, r])
      y[p, q] = (Σ_k x[p, k] · W[q, k]) + b[q]                      (p < 4096, q < 1024)
  Every sum is a finite sum in the commutative monoid of the extended reals, so neither a tiling of the rows, nor one
  of the contraction, nor the order of the summands changes it; no law beyond `0 + a = a` is used anywhere.
-/
import Idealize.ShloMosaic.PureOps.Ideal
import Idealize.ShloMosaic.Lib.ValueIdx

noncomputable section

namespace Cert.Spec

open Idealize.ShloMosaic Idealize.ShloMosaic.ValueIdx

/-- One gated entry: the data entry times the logistic of the negated mask logit. -/
def gate (d p : EReal) : EReal := d * Ideal.logistic (0 - p)

/-- The effective weight at row `r`, column `k`: the four groups' gated entries, summed. -/
def weff (wd wm : (⟨3, ![4, 1024, 1024]⟩ : Shape).Idx → EReal) (r k : Fin 1024) : EReal :=
  ∑ g : Fin 4, gate (wd (ix3 g r k)) (wm (ix3 g r k))

/-- The effective bias at `r`. -/
def beff (bd bm : (⟨2, ![4, 1024]⟩ : Shape).Idx → EReal) (r : Fin 1024) : EReal :=
  ∑ g : Fin 4, gate (bd (ix2 g r)) (bm (ix2 g r))

/-- The layer's output at row `p`, column `q`. -/
def outAt (x : (⟨2, ![4096, 1024]⟩ : Shape).Idx → EReal) (wd wm : (⟨3, ![4, 1024, 1024]⟩ : Shape).Idx → EReal)
    (bd bm : (⟨2, ![4, 1024]⟩ : Shape).Idx → EReal) (p : Fin 4096) (q : Fin 1024) : EReal :=
  (∑ k : Fin 1024, x (ix2 p k) * weff wd wm q k) + beff bd bm q

/-- The effective weight as an array. -/
def weffArr (wd wm : (⟨3, ![4, 1024, 1024]⟩ : Shape).Idx → EReal) : (⟨2, ![1024, 1024]⟩ : Shape).Idx → EReal :=
  fun i => weff wd wm (i 0) (i 1)

/-- The layer's output as an array. -/
def out (x : (⟨2, ![4096, 1024]⟩ : Shape).Idx → EReal) (wd wm : (⟨3, ![4, 1024, 1024]⟩ : Shape).Idx → EReal)
    (bd bm : (⟨2, ![4, 1024]⟩ : Shape).Idx → EReal) : (⟨2, ![4096, 1024]⟩ : Shape).Idx → EReal :=
  fun i => outAt x wd wm bd bm (i 0) (i 1)

/-- A linear layer against an arbitrary weight array `W`, at row `p`, column `q`. -/
def linAt (x : (⟨2, ![4096, 1024]⟩ : Shape).Idx → EReal) (W : (⟨2, ![1024, 1024]⟩ : Shape).Idx → EReal)
    (bd bm : (⟨2, ![4, 1024]⟩ : Shape).Idx → EReal) (p : Fin 4096) (q : Fin 1024) : EReal :=
  (∑ k : Fin 1024, x (ix2 p k) * W (ix2 q k)) + beff bd bm q

/-- … as an array. -/
def lin (x : (⟨2, ![4096, 1024]⟩ : Shape).Idx → EReal) (W : (⟨2, ![1024, 1024]⟩ : Shape).Idx → EReal)
    (bd bm : (⟨2, ![4, 1024]⟩ : Shape).Idx → EReal) : (⟨2, ![4096, 1024]⟩ : Shape).Idx → EReal :=
  fun i => linAt x W bd bm (i 0) (i 1)

/-- The layer is the linear layer against its effective weight. -/
theorem lin_weffArr (x : (⟨2, ![4096, 1024]⟩ : Shape).Idx → EReal) (wd wm : (⟨3, ![4, 1024, 1024]⟩ : Shape).Idx → EReal)
    (bd bm : (⟨2, ![4, 1024]⟩ : Shape).Idx → EReal) : lin x (weffArr wd wm) bd bm = out x wd wm bd bm := rfl

theorem weffArr_ix2 (wd wm : (⟨3, ![4, 1024, 1024]⟩ : Shape).Idx → EReal) (r k : Fin 1024) :
    weffArr wd wm (ix2 r k) = weff wd wm r k := rfl

theorem out_ix2 (x : (⟨2, ![4096, 1024]⟩ : Shape).Idx → EReal) (wd wm : (⟨3, ![4, 1024, 1024]⟩ : Shape).Idx → EReal)
    (bd bm : (⟨2, ![4, 1024]⟩ : Shape).Idx → EReal) (p : Fin 4096) (q : Fin 1024) :
    out x wd wm bd bm (ix2 p q) = outAt x wd wm bd bm p q := rfl

end Cert.Spec

end
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.KernelPayload.lean ====
/-
  The fused kernel's two stored values read at an index, over the extended reals.
-/
import proofs.«159003_g2000604218572491_pallasbulk_1250_7_alg».proof.Proof.Gen.KernelIdeal.Skeleton
import proofs.«159003_g2000604218572491_pallasbulk_1250_7_alg».proof.Proof.Spec
import Idealize.ShloMosaic.PureOps.Ideal.Laws
import Idealize.ShloMosaic.Lib.ValueIdx
import Idealize.ShloMosaic.Lib.Pipeline.Value
import Idealize.ShloMosaic.Lib.ValueLayout
import proofs.«159003_g2000604218572491_pallasbulk_1250_7_alg».proof.Proof.LibLeadSumDotT

noncomputable section

namespace Cert.KernelIdeal.Payload

open Idealize.ShloMosaic Idealize.ShloMosaic.ValueIdx Cert.KernelIdeal Cert.KernelIdeal.Gen Cert.Spec Cert.Lib

/-! ## Small readings shared by the stores -/

/-- A gated entry read at an index: the data entry times the logistic of zero minus the mask entry. -/
private theorem gated_apply {s : Shape} (d m : FVec Ideal s .f32) (i : s.Idx) :
    mulf d (logistic (subf (broadcast s (Scalar.ofBits (F := Ideal) .f32 0x00000000#32)) m)) i = gate (d i) (m i) := by
  show d i * Ideal.logistic (Ideal.ofBits .f32 0x00000000#32 - m i) = d i * Ideal.logistic (0 - m i)
  rw [Ideal.ofBits_zero_f32]

/-! ## The two stores -/

/-- The value stored into the weight scratch, at row `r` and column `k` of the stripe: the four groups' gated entries of
    the two weight blocks, summed. -/
theorem weightStore_apply (v18 v19 : Vec Ideal S4x512x1024 .f32) (r : Fin 512) (k : Fin 1024) :
    k0_pay1 (F := Ideal) v18 v19 (ix2 r k) = ∑ g : Fin 4, gate (v18 (ix3 g r k)) (v19 (ix3 g r k)) := by
  unfold k0_pay1
  refine (congrFun (shapeCast_self _ _) (ix2 r k)).trans ?_
  refine (truncf_apply (φ := .f32) (ψ := .bf16) _ bitsLt_bf16_f32 (ix2 r k)).trans ?_
  refine (sumLead3_apply _ reduces_S4x512x1024_S512x1024 _ _ r k).trans ?_
  exact Finset.sum_congr rfl fun g _ => gated_apply v18 v19 (ix3 g r k)

/-- The value stored into the output block, at row `p` and column `q`: the row of the `x` block against row `q` of the
    weight scratch, plus the gated bias of column `q`. -/
theorem outStore_apply (v3 v4 : Vec Ideal S4x512 .f32) (v11 : Vec Ideal S1024x1024 .f32) (v13 : Vec Ideal S512x1024 .bf16)
    (p : Fin 1024) (q : Fin 512) :
    k0_pay2 (F := Ideal) v3 v4 v11 v13 (ix2 p q)
      = (∑ k : Fin 1024, v11 (ix2 p k) * v13 (ix2 q k)) + ∑ g : Fin 4, gate (v3 (ix2 g q)) (v4 (ix2 g q)) := by
  unfold k0_pay2
  refine (addf_apply (φ := .f32) _ _ (ix2 p q)).trans ?_
  refine congrArg₂ (· + ·) ?_ ?_
  · exact matmulT_apply (truncf .bf16 v11 bitsLt_bf16_f32) v13 p q
  · refine (broadcastTo_1b_ab_apply _ _ p q).trans ?_
    refine (shapeCast_a_1a_apply _ _ 0 q).trans ?_
    refine (sumLead2_apply _ reduces_S4x512_S512 _ _ q).trans ?_
    exact Finset.sum_congr rfl fun g _ => gated_apply v3 v4 (ix2 g q)

end Cert.KernelIdeal.Payload

end
-- ==== Proof.KernelValue.lean ====
/-
  The fused kernel's result array, over the extended reals.

  The grid is (stripe s < 2, tile u < 4); point t = 4·s + u. Point t stages rows 1024·u … of `x`, rows 512·s … of
  each group of the weights and of the biases, and writes back the output block at (rows 1024·u …, columns 512·s …).
  The scratch is reset to the collapsed weight block of stripe s at u = 0 and carried through u = 1, 2, 3, so after
  every point it holds rows 512·s … of the effective weight (an induction over the points). Hence what point t writes
  back is the block of the layer's output: row p of the `x` block against row q of the effective weight's stripe, plus
  the gated bias of column q. The eight blocks tile the [4096, 1024] result, so it ends holding the layer's output.
-/
import proofs.«159003_g2000604218572491_pallasbulk_1250_7_alg».proof.Proof.Gen.KernelIdeal.Value
import proofs.«159003_g2000604218572491_pallasbulk_1250_7_alg».proof.Proof.KernelPieces
import proofs.«159003_g2000604218572491_pallasbulk_1250_7_alg».proof.Proof.KernelPayload
import proofs.«159003_g2000604218572491_pallasbulk_1250_7_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.KernelIdeal.Pieces Cert.KernelIdeal.Payload Cert.Spec

variable (m : (ℓ : Loc nD τ sig) → Buf (Elt Ideal) ℓ) (ρ : Dev nD → PrngReg)

abbrev xarr (c : Dev nD) : Vec Ideal S4096x1024 .f32 := V m c main_arg0
abbrev wdarr (c : Dev nD) : Vec Ideal S4x1024x1024 .f32 := V m c main_arg1
abbrev wmarr (c : Dev nD) : Vec Ideal S4x1024x1024 .f32 := V m c main_arg2
abbrev bdarr (c : Dev nD) : Vec Ideal S4x1024 .f32 := V m c main_arg3
abbrev bmarr (c : Dev nD) : Vec Ideal S4x1024 .f32 := V m c main_arg4

abbrev xblk (c : Dev nD) (t : Fin cfg0.N) : Vec Ideal S1024x1024 .f32 := iblk m c 0 t
abbrev wdblk (c : Dev nD) (t : Fin cfg0.N) : Vec Ideal S4x512x1024 .f32 := iblk m c 1 t
abbrev wmblk (c : Dev nD) (t : Fin cfg0.N) : Vec Ideal S4x512x1024 .f32 := iblk m c 2 t
abbrev bdblk (c : Dev nD) (t : Fin cfg0.N) : Vec Ideal S4x512 .f32 := iblk m c 3 t
abbrev bmblk (c : Dev nD) (t : Fin cfg0.N) : Vec Ideal S4x512 .f32 := iblk m c 4 t

/-- The grid has eight points. -/
theorem lt8 (t : Fin cfg0.N) : t.val < 8 := lt_of_lt_of_eq t.isLt (show cfg0.N = 8 from N_0)

/-- The six index maps, decided over the eight points: `x` moves with the tile, the weights and biases with the stripe,
    the output with both. -/
theorem idx_facts : ∀ t : Fin cfg0.N,
    win0_0.index t (0 : Fin 2) = t.val % 4 ∧ win0_0.index t (1 : Fin 2) = 0
    ∧ win0_1.index t (0 : Fin 3) = 0 ∧ win0_1.index t (1 : Fin 3) = t.val / 4 ∧ win0_1.index t (2 : Fin 3) = 0
    ∧ win0_2.index t (0 : Fin 3) = 0 ∧ win0_2.index t (1 : Fin 3) = t.val / 4 ∧ win0_2.index t (2 : Fin 3) = 0
    ∧ win0_3.index t (0 : Fin 2) = 0 ∧ win0_3.index t (1 : Fin 2) = t.val / 4
    ∧ win0_4.index t (0 : Fin 2) = 0 ∧ win0_4.index t (1 : Fin 2) = t.val / 4
    ∧ win0_5.index t (0 : Fin 2) = t.val % 4 ∧ win0_5.index t (1 : Fin 2) = t.val / 4 :=
  (by decide +kernel : ∀ t : Fin grid0.N, _)

/-- Row `p` of the point's `x` block, as a row of `x`; row or column `q` of its stripe, as a row of the weights. -/
def xrow (t : Fin cfg0.N) (p : Fin 1024) : Fin 4096 := ⟨1024 * (t.val % 4) + p.val, by omega⟩
def wrow (t : Fin cfg0.N) (q : Fin 512) : Fin 1024 := ⟨512 * (t.val / 4) + q.val, by have := lt8 t; omega⟩

/-- Each staged block, read at an index, is its array read at the block's offset plus the index. -/
theorem xblk_apply (c : Dev nD) (t : Fin cfg0.N) (p k : Fin 1024) :
    xblk m c t (ix2 p k) = xarr m c (ix2 (xrow t p) k) := by
  obtain ⟨e0, e1, -⟩ := idx_facts t
  show V m c main_arg0 (((cfg0.win 0).blk t).view.emb (ix2 p k)) = V m c main_arg0 (ix2 (xrow t p) k)
  have he : ((cfg0.win 0).blk t).view.emb (ix2 p k) = ix2 (xrow t p) k := by
    funext a; apply Fin.ext
    match a with
    | ⟨0, _⟩ => show win0_0.index t (0 : Fin 2) * 1024 + 1 * p.val = 1024 * (t.val % 4) + p.val; omega
    | ⟨1, _⟩ => show win0_0.index t (1 : Fin 2) * 1024 + 1 * k.val = k.val; omega
  rw [he]

theorem wdblk_apply (c : Dev nD) (t : Fin cfg0.N) (g : Fin 4) (r : Fin 512) (k : Fin 1024) :
    wdblk m c t (ix3 g r k) = wdarr m c (ix3 g (wrow t r) k) := by
  obtain ⟨-, -, e0, e1, e2, -⟩ := idx_facts t
  show V m c main_arg1 (((cfg0.win 1).blk t).view.emb (ix3 g r k)) = V m c main_arg1 (ix3 g (wrow t r) k)
  have he : ((cfg0.win 1).blk t).view.emb (ix3 g r k) = ix3 g (wrow t r) k := by
    funext a; apply Fin.ext
    match a with
    | ⟨0, _⟩ => show win0_1.index t (0 : Fin 3) * 4 + 1 * g.val = g.val; omega
    | ⟨1, _⟩ => show win0_1.index t (1 : Fin 3) * 512 + 1 * r.val = 512 * (t.val / 4) + r.val; omega
    | ⟨2, _⟩ => show win0_1.index t (2 : Fin 3) * 1024 + 1 * k.val = k.val; omega
  rw [he]

theorem wmblk_apply (c : Dev nD) (t : Fin cfg0.N) (g : Fin 4) (r : Fin 512) (k : Fin 1024) :
    wmblk m c t (ix3 g r k) = wmarr m c (ix3 g (wrow t r) k) := by
  obtain ⟨-, -, -, -, -, e0, e1, e2, -⟩ := idx_facts t
  show V m c main_arg2 (((cfg0.win 2).blk t).view.emb (ix3 g r k)) = V m c main_arg2 (ix3 g (wrow t r) k)
  have he : ((cfg0.win 2).blk t).view.emb (ix3 g r k) = ix3 g (wrow t r) k := by
    funext a; apply Fin.ext
    match a with
    | ⟨0, _⟩ => show win0_2.index t (0 : Fin 3) * 4 + 1 * g.val = g.val; omega
    | ⟨1, _⟩ => show win0_2.index t (1 : Fin 3) * 512 + 1 * r.val = 512 * (t.val / 4) + r.val; omega
    | ⟨2, _⟩ => show win0_2.index t (2 : Fin 3) * 1024 + 1 * k.val = k.val; omega
  rw [he]

theorem bdblk_apply (c : Dev nD) (t : Fin cfg0.N) (g : Fin 4) (q : Fin 512) :
    bdblk m c t (ix2 g q) = bdarr m c (ix2 g (wrow t q)) := by
  obtain ⟨-, -, -, -, -, -, -, -, e0, e1, -⟩ := idx_facts t
  show V m c main_arg3 (((cfg0.win 3).blk t).view.emb (ix2 g q)) = V m c main_arg3 (ix2 g (wrow t q))
  have he : ((cfg0.win 3).blk t).view.emb (ix2 g q) = ix2 g (wrow t q) := by
    funext a; apply Fin.ext
    match a with
    | ⟨0, _⟩ => show win0_3.index t (0 : Fin 2) * 4 + 1 * g.val = g.val; omega
    | ⟨1, _⟩ => show win0_3.index t (1 : Fin 2) * 512 + 1 * q.val = 512 * (t.val / 4) + q.val; omega
  rw [he]

theorem bmblk_apply (c : Dev nD) (t : Fin cfg0.N) (g : Fin 4) (q : Fin 512) :
    bmblk m c t (ix2 g q) = bmarr m c (ix2 g (wrow t q)) := by
  obtain ⟨-, -, -, -, -, -, -, -, -, -, e0, e1, -⟩ := idx_facts t
  show V m c main_arg4 (((cfg0.win 4).blk t).view.emb (ix2 g q)) = V m c main_arg4 (ix2 g (wrow t q))
  have he : ((cfg0.win 4).blk t).view.emb (ix2 g q) = ix2 g (wrow t q) := by
    funext a; apply Fin.ext
    match a with
    | ⟨0, _⟩ => show win0_4.index t (0 : Fin 2) * 4 + 1 * g.val = g.val; omega
    | ⟨1, _⟩ => show win0_4.index t (1 : Fin 2) * 512 + 1 * q.val = 512 * (t.val / 4) + q.val; omega
  rw [he]

/-- The stripe a grid point belongs to. -/
def stripe (t : Fin cfg0.N) : Fin 2 := ⟨t.val / 4, by have := lt8 t; omega⟩

def wrowS (s : Fin 2) (r : Fin 512) : Fin 1024 := ⟨512 * s.val + r.val, by omega⟩

theorem wrow_eq (t : Fin cfg0.N) (q : Fin 512) : wrow t q = wrowS (stripe t) q := rfl

/-- The collapsed weight block of a stripe: rows 512·s … 512·s + 511 of the effective weight. -/
def wblock (c : Dev nD) (s : Fin 2) : Vec Ideal S512x1024 .bf16 :=
  fun y => weff (wdarr m c) (wmarr m c) (wrowS s (y 0)) (y 1)

/-- After every point the scratch holds the collapsed weight block of the point's stripe: stored at the stripe's first
    tile, kept by the later ones. -/
theorem scratch_inv (c : Dev nD) : ∀ (n : ℕ) (h : n < cfg0.N), (outsAt0 m c n h).2 = wblock m c (stripe ⟨n, h⟩) := by
  intro n
  induction n using Nat.strong_induction_on with
  | _ n ih =>
    intro h
    by_cases h0 : n % 4 = 0
    · rw [outsAt0_A m c ⟨n, h⟩ h0]
      dsimp only
      rw [scratch_A]
      funext y
      obtain ⟨r, k, rfl⟩ : ∃ (r : Fin 512) (k : Fin 1024), y = ix2 r k := ⟨y 0, y 1, eq_ix2 y⟩
      show k0_pay1 (F := Ideal) (wdblk m c ⟨n, h⟩) (wmblk m c ⟨n, h⟩) (ix2 r k)
        = weff (wdarr m c) (wmarr m c) (wrow ⟨n, h⟩ r) k
      rw [weightStore_apply]
      unfold weff
      refine Finset.sum_congr rfl fun g _ => ?_
      rw [wdblk_apply, wmblk_apply]
    · have hn : n ≠ 0 := by intro e; subst e; exact h0 rfl
      rw [outsAt0_B m c ⟨n, h⟩ h0]
      dsimp only
      unfold sout0_B_0
      rw [ih (n - 1) (by omega) _]
      refine congrArg (wblock m c) (Fin.ext ?_)
      show (n - 1) / 4 = n / 4
      omega

/-- At every point the output block is the product against what the scratch holds after the point, plus the bias. -/
theorem out_eq (c : Dev nD) (n : ℕ) (h : n < cfg0.N) :
    (outsAt0 m c n h).1
      = k0_pay2 (bdblk m c ⟨n, h⟩) (bmblk m c ⟨n, h⟩) (xblk m c ⟨n, h⟩) (outsAt0 m c n h).2 := by
  by_cases h0 : n % 4 = 0
  · rw [outsAt0_A m c ⟨n, h⟩ h0]; dsimp only; rw [out_A, scratch_A]
  · rw [outsAt0_B m c ⟨n, h⟩ h0]; dsimp only; rw [out_B]; rfl

/-- The layer's output of the argument arrays. -/
abbrev result (c : Dev nD) : Vec Ideal S4096x1024 .f32 :=
  Cert.Spec.out (xarr m c) (wdarr m c) (wmarr m c) (bdarr m c) (bmarr m c)

/-- What point `t` writes back is block `t` of the layer's output. -/
theorem flushed_eq (c : Dev nD) (t : Fin cfg0.N) :
    (dats m 0 c).flushed 5 t = ((cfg0.win 5).blk t).view.read (Elt Ideal) (result m c) := by
  rw [Value.flushed5, out_eq, scratch_inv]
  obtain ⟨-, -, -, -, -, -, -, -, -, -, -, -, e0, e1⟩ := idx_facts t
  funext j
  obtain ⟨p, q, rfl⟩ : ∃ (p : Fin 1024) (q : Fin 512), j = ix2 p q := ⟨j 0, j 1, eq_ix2 j⟩
  show k0_pay2 (F := Ideal) (bdblk m c t) (bmblk m c t) (xblk m c t) (wblock m c (stripe t)) (ix2 p q)
      = result m c (((cfg0.win 5).blk t).view.emb (ix2 p q))
  have he : ((cfg0.win 5).blk t).view.emb (ix2 p q) = ix2 (xrow t p) (wrow t q) := by
    funext a; apply Fin.ext
    match a with
    | ⟨0, _⟩ => show win0_5.index t (0 : Fin 2) * 1024 + 1 * p.val = 1024 * (t.val % 4) + p.val; omega
    | ⟨1, _⟩ => show win0_5.index t (1 : Fin 2) * 512 + 1 * q.val = 512 * (t.val / 4) + q.val; omega
  rw [he, outStore_apply]
  show _ = outAt (xarr m c) (wdarr m c) (wmarr m c) (bdarr m c) (bmarr m c) (xrow t p) (wrow t q)
  unfold outAt beff
  congr 1
  · refine Finset.sum_congr rfl fun k _ => ?_
    rw [xblk_apply]; rfl
  · refine Finset.sum_congr rfl fun g _ => ?_
    rw [bdblk_apply, bmblk_apply]

/-- Every index of the result lies in the block of the point (stripe = column / 512, tile = row / 1024). -/
theorem cover (c : Dev nD) (i : S4096x1024.Idx) :
    ∃ t : Fin cfg0.N, (cfg0.win 5).flush t = true ∧ i ∈ ((cfg0.win 5).blk t).view.set := by
  have hi0 : (i 0).val < 4096 := idx2_lt0 i
  have hi1 : (i 1).val < 1024 := idx2_lt1 i
  have hlt : 4 * ((i 1).val / 512) + (i 0).val / 1024 < cfg0.N := by rw [show cfg0.N = 8 from N_0]; omega
  obtain ⟨-, -, -, -, -, -, -, -, -, -, -, -, e0, e1⟩ := idx_facts ⟨_, hlt⟩
  refine ⟨⟨_, hlt⟩, flush0_5 _, ?_⟩
  show i ∈ ((View.whole main_v0).slice (win0_5.rect ⟨_, hlt⟩)).set
  rw [View.set_slice_whole, Rect.mem_set_unit]
  intro a
  match a with
  | ⟨0, _⟩ =>
    show win0_5.index ⟨_, hlt⟩ (0 : Fin 2) * 1024 ≤ (i 0).val ∧ (i 0).val < win0_5.index ⟨_, hlt⟩ (0 : Fin 2) * 1024 + 1024
    rw [e0]; dsimp only; omega
  | ⟨1, _⟩ =>
    show win0_5.index ⟨_, hlt⟩ (1 : Fin 2) * 512 ≤ (i 1).val ∧ (i 1).val < win0_5.index ⟨_, hlt⟩ (1 : Fin 2) * 512 + 512
    rw [e1]; dsimp only; omega

/-- So the result array ends holding the layer's output. -/
theorem final (c : Dev nD) : (dats m 0 c).arrAt 5 cfg0.N = result m c :=
  (dats m 0 c).arrAt_eq_of_cover 5 (result m c) (fun t _ => flushed_eq m c t) (cover c)

/-- The kernel's run, read: the result at the layer's output, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Val

end
-- ==== Proof.ReferencePayload.lean ====
/-
  The reference's stored values read at an index, over the extended reals: the weight-collapse kernel's one store and
  the matmul kernel's three.
-/
import proofs.«159003_g2000604218572491_pallasbulk_1250_7_alg».proof.Proof.Gen.ReferenceIdeal.Skeleton
import proofs.«159003_g2000604218572491_pallasbulk_1250_7_alg».proof.Proof.Spec
import Idealize.ShloMosaic.PureOps.Ideal.Laws
import Idealize.ShloMosaic.Lib.ValueIdx
import Idealize.ShloMosaic.Lib.Pipeline.Value
import Idealize.ShloMosaic.Lib.ValueLayout
import proofs.«159003_g2000604218572491_pallasbulk_1250_7_alg».proof.Proof.LibLeadSumDotT

noncomputable section

namespace Cert.ReferenceIdeal.Payload

open Idealize.ShloMosaic Idealize.ShloMosaic.ValueIdx Cert.ReferenceIdeal Cert.ReferenceIdeal.Gen Cert.Spec Cert.Lib

/-! ## Small readings shared by the stores -/

/-- A gated entry read at an index: the data entry times the logistic of zero minus the mask entry. -/
private theorem gated_apply {s : Shape} (d m : FVec Ideal s .f32) (i : s.Idx) :
    mulf d (logistic (subf (broadcast s (Scalar.ofBits (F := Ideal) .f32 0x00000000#32)) m)) i = gate (d i) (m i) := by
  show d i * Ideal.logistic (Ideal.ofBits .f32 0x00000000#32 - m i) = d i * Ideal.logistic (0 - m i)
  rw [Ideal.ofBits_zero_f32]

/-! ## The four stores -/

/-- The collapse kernel's store at row `r`, column `k` of its tile: the four groups' gated entries, summed. -/
theorem collapseStore_apply (v0 v1 : Vec Ideal S4x512x512 .f32) (r k : Fin 512) :
    k0_pay1 (F := Ideal) v0 v1 (ix2 r k) = ∑ g : Fin 4, gate (v0 (ix3 g r k)) (v1 (ix3 g r k)) := by
  unfold k0_pay1
  refine (sumLead3_apply _ reduces_S4x512x512_S512x512 _ _ r k).trans ?_
  exact Finset.sum_congr rfl fun g _ => gated_apply v0 v1 (ix3 g r k)

/-- The matmul kernel's reset store: zero everywhere. -/
theorem resetStore_apply (y : S256x512.Idx) : k1_pay1 (F := Ideal) y = 0 := by
  unfold k1_pay1
  exact Ideal.ofBits_zero_f32

/-- Its accumulation store at row `p`, column `q`: what the block held plus the row of `x` against row `q` of the
    weight block. -/
theorem accStore_apply (v3 : Vec Ideal S256x512 .f32) (v5 : Vec Ideal S256x1024 .f32) (v6 : Vec Ideal S512x1024 .f32)
    (p : Fin 256) (q : Fin 512) :
    k1_pay2 (F := Ideal) v3 v5 v6 (ix2 p q) = v3 (ix2 p q) + ∑ k : Fin 1024, v5 (ix2 p k) * v6 (ix2 q k) := by
  unfold k1_pay2
  refine (addf_apply (φ := .f32) _ _ (ix2 p q)).trans ?_
  refine congrArg₂ (· + ·) ?_ ?_
  · exact congrFun (shapeCast_self v3 _) (ix2 p q)
  · refine (matmulT_apply v5 (shapeCast S512x1024 v6 shapeCasts_S512x1024_S512x1024) p q).trans ?_
    exact Finset.sum_congr rfl fun k _ =>
      congrArg (v5 (ix2 p k) * ·) (congrFun (shapeCast_self v6 _) (ix2 q k))

/-- Its bias store at row `p`, column `q`: what the block held plus the gated bias of column `q`. -/
theorem biasStore_apply (v14 : Vec Ideal S256x512 .f32) (v16 v17 : Vec Ideal S4x512 .f32) (p : Fin 256) (q : Fin 512) :
    k1_pay3 (F := Ideal) v14 v16 v17 (ix2 p q) = v14 (ix2 p q) + ∑ g : Fin 4, gate (v16 (ix2 g q)) (v17 (ix2 g q)) := by
  unfold k1_pay3
  refine (addf_apply (φ := .f32) _ _ (ix2 p q)).trans ?_
  refine congrArg₂ (· + ·) ?_ ?_
  · exact congrFun (shapeCast_self v14 _) (ix2 p q)
  · refine (broadcastTo_1b_ab_apply _ _ p q).trans ?_
    refine (shapeCast_a_1a_apply _ _ 0 q).trans ?_
    refine (sumLead2_apply _ reduces_S4x512_S512 _ _ q).trans ?_
    exact Finset.sum_congr rfl fun g _ => gated_apply v16 v17 (ix2 g q)

end Cert.ReferenceIdeal.Payload

end
-- ==== Proof.ReferenceWeights.lean ====
/-
  The reference's first region: the array it leaves is the effective weight.
-/
import proofs.«159003_g2000604218572491_pallasbulk_1250_7_alg».proof.Proof.Gen.ReferenceIdeal.Frame
import proofs.«159003_g2000604218572491_pallasbulk_1250_7_alg».proof.Proof.ReferencePayload
import Idealize.ShloMosaic.Lib.Pipeline.Value

noncomputable section

namespace Cert.ReferenceIdeal.Weights

open Idealize.ShloMosaic Idealize.ShloMosaic.TcCoe Idealize.ShloMosaic.ValueIdx Idealize.SL.Sem
open Idealize.ShloMosaic.Pipeline (Dat)
open Cert.ReferenceIdeal Cert.ReferenceIdeal.Gen

variable (V : (c : Dev nD) → (b : Ref sig .tc) → Buf (Elt Ideal) ((c : Thread nD τ).loc b))

/-- Two zero offsets, however spelt. -/
private theorem zero2 : (![0, 0] : Fin 2 → Nat) = fun _ => 0 := funext fun a => by fin_cases a <;> rfl

/-- Three zero offsets. -/
private theorem zero3 : (![0, 0, 0] : Fin 3 → Nat) = fun _ => 0 := funext fun a => by fin_cases a <;> rfl

/-- The printed index maps over the grid: both weight windows sit at group block 0 and move with the result window on
    the two tile axes; the result window's block indices are at most 1. -/
private theorem index_facts : ∀ t : Fin cfg0.N,
    win0_0.index t (0 : Fin 3) = 0 ∧ win0_0.index t (1 : Fin 3) = win0_2.index t (0 : Fin 2)
    ∧ win0_0.index t (2 : Fin 3) = win0_2.index t (1 : Fin 2)
    ∧ win0_1.index t (0 : Fin 3) = 0 ∧ win0_1.index t (1 : Fin 3) = win0_2.index t (0 : Fin 2)
    ∧ win0_1.index t (2 : Fin 3) = win0_2.index t (1 : Fin 2)
    ∧ win0_2.index t (0 : Fin 2) ≤ 1 ∧ win0_2.index t (1 : Fin 2) ≤ 1 :=
  (by decide +kernel : ∀ t : Fin grid0.N, _)

/-- Every tile of the 2 × 2 tiling is some point's. -/
private theorem index_onto : ∀ (q0 q1 : Fin 2), ∃ t : Fin cfg0.N, win0_2.index t = ![q0.val, q1.val] :=
  (by decide +kernel : ∀ (q0 q1 : Fin 2), ∃ t : Fin grid0.N, win0_2.index t = ![q0.val, q1.val])

/-- The store of a tile whose two input blocks are the weight arrays read along an embedding `e` of the tile into the
    result array is the effective weight along `e`. -/
private theorem store_along (x0 x1 : Vec Ideal S4x512x512 .f32) (A1 A2 : S4x1024x1024.Idx → EReal)
    (e : S512x512.Idx → S1024x1024.Idx)
    (h0 : ∀ (g : Fin 4) (r k : Fin 512), x0 (ix3 g r k) = A1 (ix3 g (e (ix2 r k) 0) (e (ix2 r k) 1)))
    (h1 : ∀ (g : Fin 4) (r k : Fin 512), x1 (ix3 g r k) = A2 (ix3 g (e (ix2 r k) 0) (e (ix2 r k) 1)))
    (y : S512x512.Idx) :
    k0_pay1 (F := Ideal) x0 x1 y = Cert.Spec.weffArr A1 A2 (e y) := by
  obtain ⟨r, k, rfl⟩ : ∃ (r k : Fin 512), y = ix2 r k := ⟨y 0, y 1, eq_ix2 y⟩
  rw [Payload.collapseStore_apply]
  show _ = ∑ g : Fin 4, Cert.Spec.gate (A1 (ix3 g (e (ix2 r k) 0) (e (ix2 r k) 1))) (A2 (ix3 g (e (ix2 r k) 0) (e (ix2 r k) 1)))
  refine Finset.sum_congr rfl fun g _ => ?_
  rw [h0, h1]

/-- Where an element of the first weight window's block sits in its array: group `g`, and on the two tile axes where
    the result window's block puts row `r`, column `k`. -/
private theorem emb_first (t : Fin cfg0.N) (g : Fin 4) (r k : Fin 512) :
    ((cfg0.win 0).blk t).view.emb (ix3 g r k)
      = ix3 g (((cfg0.win 2).blk t).view.emb (ix2 r k) 0) (((cfg0.win 2).blk t).view.emb (ix2 r k) 1) := by
  obtain ⟨e0, e1, e2, -, -, -, -, -⟩ := index_facts t
  funext a; apply Fin.ext
  match a with
  | ⟨0, _⟩ => show win0_0.index t (0 : Fin 3) * 4 + 1 * g.val = g.val; omega
  | ⟨1, _⟩ => show win0_0.index t (1 : Fin 3) * 512 + 1 * r.val = win0_2.index t (0 : Fin 2) * 512 + 1 * r.val; omega
  | ⟨2, _⟩ => show win0_0.index t (2 : Fin 3) * 512 + 1 * k.val = win0_2.index t (1 : Fin 2) * 512 + 1 * k.val; omega

/-- The same for the second weight window. -/
private theorem emb_second (t : Fin cfg0.N) (g : Fin 4) (r k : Fin 512) :
    ((cfg0.win 1).blk t).view.emb (ix3 g r k)
      = ix3 g (((cfg0.win 2).blk t).view.emb (ix2 r k) 0) (((cfg0.win 2).blk t).view.emb (ix2 r k) 1) := by
  obtain ⟨-, -, -, e0, e1, e2, -, -⟩ := index_facts t
  funext a; apply Fin.ext
  match a with
  | ⟨0, _⟩ => show win0_1.index t (0 : Fin 3) * 4 + 1 * g.val = g.val; omega
  | ⟨1, _⟩ => show win0_1.index t (1 : Fin 3) * 512 + 1 * r.val = win0_2.index t (0 : Fin 2) * 512 + 1 * r.val; omega
  | ⟨2, _⟩ => show win0_1.index t (2 : Fin 3) * 512 + 1 * k.val = win0_2.index t (1 : Fin 2) * 512 + 1 * k.val; omega

/-- What a point writes back is its tile of the effective weight of the two weight arrays as the region finds them. -/
private theorem flushed_eq (c : Dev nD) (t : Fin cfg0.N) :
    (dat0 V c).flushed 2 t
      = ((cfg0.win 2).blk t).view.read (Elt Ideal) (Cert.Spec.weffArr (V c main_arg1) (V c main_arg2)) := by
  show (cfg0.win 2).cut (grid0.coords t) ((dat0 V c).after 2 t) = _
  rw [after0_2]
  unfold out0_2
  rw [View.canon_unit_zero zero2]
  simp only [View.ld_unit_zero (S := S4x512x512) zero3]
  funext y
  refine store_along (iblk0 V c 0 t) (iblk0 V c 1 t) (V c main_arg1) (V c main_arg2)
    ((cfg0.win 2).blk t).view.emb (fun g r k => ?_) (fun g r k => ?_) y
  · show V c main_arg1 (((cfg0.win 0).blk t).view.emb (ix3 g r k)) = _
    exact congrArg (V c main_arg1) (emb_first t g r k)
  · show V c main_arg2 (((cfg0.win 1).blk t).view.emb (ix3 g r k)) = _
    exact congrArg (V c main_arg2) (emb_second t g r k)

/-- An index of the result array is in a point's tile iff each coordinate is in the tile's range on its axis. -/
private theorem mem_tile (t : Fin cfg0.N) (i : S1024x1024.Idx) :
    i ∈ ((cfg0.win 2).blk t).view.set
      ↔ ∀ a : Fin 2, win0_2.index t a * S512x512.size a ≤ (i a).val
          ∧ (i a).val < win0_2.index t a * S512x512.size a + S512x512.size a := by
  show i ∈ ((View.whole main_v0).slice (win0_2.rect t)).set ↔ _
  rw [View.set_slice_whole, Rect.mem_set_unit]
  exact Iff.rfl

/-- The tiles cover the result array: index `i` lies in the tile of the point whose block indices are
    `i 0 / 512` and `i 1 / 512`, and every point writes back. -/
private theorem tiles_cover (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := index_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_tile]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- After the collapse region, entered at contents `V`, its result array is the effective weight of the two weight arrays. -/
theorem final (c : Dev nD) :
    (dat0 V c).arrAt 2 cfg0.N = Cert.Spec.weffArr (V c main_arg1) (V c main_arg2) :=
  (dat0 V c).arrAt_eq_of_cover 2 (Cert.Spec.weffArr (V c main_arg1) (V c main_arg2))
    (fun t _ => flushed_eq V c t) tiles_cover

end Cert.ReferenceIdeal.Weights

end
-- ==== Proof.ReferenceOutput.lean ====
/-
  The reference's second region: the array it leaves is the linear layer of its operand arrays.

  The matmul kernel runs on the grid [16, 2, 1]. At the point with coordinates (i, j, 0) its body sees rows
  256 i … 256 i + 255 of `x`, rows 512 j … 512 j + 511 of the weight array, columns 512 j … 512 j + 511 of the two bias
  arrays, and block (i, j) of the result. The third grid axis has one point, so both conditions of the body hold
  everywhere and the body always does the same three stores into the result block: zero; what the block holds plus
  x · Wᵀ; what the block holds plus the gated bias. Read back, the block at row p, column q is
      (0 + Σ_k x[256 i + p, k] · W[512 j + q, k]) + Σ_g bd[g, 512 j + q] · logistic (0 − bm[g, 512 j + q]),
  which is the linear layer at (256 i + p, 512 j + q) once `0 + a = a` removes the zero. The 32 result blocks tile the
  [4096, 1024] array and each is written back, so the array ends as the linear layer everywhere.
-/
import proofs.«159003_g2000604218572491_pallasbulk_1250_7_alg».proof.Proof.Gen.ReferenceIdeal.Frame
import proofs.«159003_g2000604218572491_pallasbulk_1250_7_alg».proof.Proof.ReferencePayload
import Idealize.ShloMosaic.Lib.Pipeline.Value

noncomputable section

namespace Cert.ReferenceIdeal.Output

open Idealize.ShloMosaic Idealize.ShloMosaic.TcCoe Idealize.ShloMosaic.ValueIdx Idealize.SL.Sem
open Idealize.ShloMosaic.Pipeline (Dat)
open Cert.ReferenceIdeal Cert.ReferenceIdeal.Gen
open Cert.Spec Cert.ReferenceIdeal.Payload

/-! ## What the body leaves in the result block -/

/-- The offsets of every load and store of the body: zero on both axes. -/
private theorem zero_offsets : (![0, 0] : Fin 2 → Nat) = fun _ => 0 := funext fun a => by fin_cases a <;> rfl

section AnyFloat
variable {F : FTy → Type} [FloatOps F]

/-- The body's three stores each cover the whole result block, so the block ends at the last one's value; each store's
    value reads the block as the store before it left it. So the block ends at the bias store of the accumulation
    store of the reset store, over the four input blocks `x0`, `x1`, `x2`, `x3` — for any float values. -/
private theorem stagedBlock_eq (c : Dev nD) (i : grid1.Coords)
    (a3 : Memref sig .tc .vmem S256x1024 .f32) (h3 : a3.IsWhole) (a4 : Memref sig .tc .vmem S512x1024 .f32) (h4 : a4.IsWhole)
    (a5 : Memref sig .tc .vmem S4x512 .f32) (h5 : a5.IsWhole) (a6 : Memref sig .tc .vmem S4x512 .f32) (h6 : a6.IsWhole)
    (a7 : Memref sig .tc .vmem S256x512 .f32) (h7 : a7.IsWhole) (hc0 : cond1_0 i) (hc1 : cond1_1 i)
    (x0 : Vec F S256x1024 .f32) (x1 : Vec F S512x1024 .f32) (x2 : Vec F S4x512 .f32) (x3 : Vec F S4x512 .f32) :
    out1_A_4 c i a3 h3 a4 h4 a5 h5 a6 h6 a7 h7 hc0 hc1 x0 x1 x2 x3
      = k1_pay3 (k1_pay2 (k1_pay1 (F := F)) x0 x1) x2 x3 := by
  unfold out1_A_4
  rw [View.read_writes_eq_canon _ _ _ (cover1_A_4 c i a3 h3 a4 h4 a5 h5 a6 h6 a7 h7 hc0 hc1 x0 x1 x2 x3)]
  unfold kernelRun1_A
  dsimp only
  sl_unfold_words
  rw [View.canon_cons_unit_zero (S := S256x512) zero_offsets]
  simp only [View.readCov_cons_toLoadRect, View.readAt_eq_ld, h3.read_unread, h4.read_unread, h5.read_unread,
    h6.read_unread, View.ld_unit_zero (S := S256x1024) zero_offsets, View.ld_unit_zero (S := S512x1024) zero_offsets,
    View.ld_unit_zero (S := S4x512) zero_offsets]

end AnyFloat

/-- Over the extended reals the result block at row `p`, column `q` is the row of `x0` against row `q` of `x1` plus
    the gated bias of column `q`: the reset's zero is the neutral element of the sum. -/
private theorem stagedBlock_apply (x0 : Vec Ideal S256x1024 .f32) (x1 : Vec Ideal S512x1024 .f32)
    (x2 x3 : Vec Ideal S4x512 .f32) (p : Fin 256) (q : Fin 512) :
    k1_pay3 (F := Ideal) (k1_pay2 (F := Ideal) (k1_pay1 (F := Ideal)) x0 x1) x2 x3 (ix2 p q)
      = (∑ k : Fin 1024, x0 (ix2 p k) * x1 (ix2 q k)) + ∑ g : Fin 4, gate (x2 (ix2 g q)) (x3 (ix2 g q)) := by
  rw [biasStore_apply, accStore_apply, resetStore_apply, zero_add]

/-- If row `p` of `x0` is row `P` of `X`, row `q` of `x1` is row `Q` of `W`, and column `q` of `x2`, `x3` is column `Q`
    of `bd`, `bm`, then the result block at (`p`, `q`) is the linear layer of `X`, `W`, `bd`, `bm` at (`P`, `Q`). -/
private theorem stagedBlock_eq_lin (X : S4096x1024.Idx → EReal) (W : S1024x1024.Idx → EReal) (bd bm : S4x1024.Idx → EReal)
    (x0 : Vec Ideal S256x1024 .f32) (x1 : Vec Ideal S512x1024 .f32) (x2 x3 : Vec Ideal S4x512 .f32)
    (p : Fin 256) (q : Fin 512) (P : Fin 4096) (Q : Fin 1024)
    (h0 : ∀ k : Fin 1024, x0 (ix2 p k) = X (ix2 P k))
    (h1 : ∀ k : Fin 1024, x1 (ix2 q k) = W (ix2 Q k))
    (h2 : ∀ g : Fin 4, x2 (ix2 g q) = bd (ix2 g Q))
    (h3 : ∀ g : Fin 4, x3 (ix2 g q) = bm (ix2 g Q)) :
    k1_pay3 (F := Ideal) (k1_pay2 (F := Ideal) (k1_pay1 (F := Ideal)) x0 x1) x2 x3 (ix2 p q)
      = lin X W bd bm (ix2 P Q) := by
  rw [stagedBlock_apply]
  show _ = (∑ k : Fin 1024, X (ix2 P k) * W (ix2 Q k)) + ∑ g : Fin 4, gate (bd (ix2 g Q)) (bm (ix2 g Q))
  congr 1
  · exact Finset.sum_congr rfl fun k _ => by rw [h0, h1]
  · exact Finset.sum_congr rfl fun g _ => by rw [h2, h3]

/-! ## The index maps -/

/-- The five index maps, decided over the 32 grid points: `x`'s block follows the result's row block and starts at
    column 0; the weight's block follows the result's column block and starts at column 0; the bias blocks start at
    row 0 and follow the result's column block; the result's block indices stay below 16 and 2. -/
private theorem blockIndex_facts : ∀ t : Fin cfg1.N,
    win1_0.index t (0 : Fin 2) = win1_4.index t (0 : Fin 2) ∧ win1_0.index t (1 : Fin 2) = 0
  ∧ win1_1.index t (0 : Fin 2) = win1_4.index t (1 : Fin 2) ∧ win1_1.index t (1 : Fin 2) = 0
  ∧ win1_2.index t (0 : Fin 2) = 0 ∧ win1_2.index t (1 : Fin 2) = win1_4.index t (1 : Fin 2)
  ∧ win1_3.index t (0 : Fin 2) = 0 ∧ win1_3.index t (1 : Fin 2) = win1_4.index t (1 : Fin 2)
  ∧ win1_4.index t (0 : Fin 2) ≤ 15 ∧ win1_4.index t (1 : Fin 2) ≤ 1 :=
  (by decide +kernel : ∀ t : Fin grid1.N, _)

/-- Every one of the 16 × 2 result blocks is some grid point's. -/
private theorem blockIndex_onto : ∀ (q0 : Fin 16) (q1 : Fin 2), ∃ t : Fin cfg1.N, win1_4.index t = ![q0.val, q1.val] :=
  (by decide +kernel : ∀ (q0 : Fin 16) (q1 : Fin 2), ∃ t : Fin grid1.N, win1_4.index t = ![q0.val, q1.val])

variable (V : (c : Dev nD) → (b : Ref sig .tc) → Buf (Elt Ideal) ((c : Thread nD τ).loc b))

/-! ## The input blocks as parts of their arrays

An element of a block sits in its array, on each axis, at the block index times the block's size plus its coordinate
inside the block. -/

/-- Row `p` of `x`'s block at point `t` is row `P` of `x`, where `P` is `p` past the result's row block. -/
private theorem xBlock_apply (c : Dev nD) (t : Fin cfg1.N) (p : Fin 256) (k : Fin 1024) (P : Fin 4096)
    (hP : P.val = win1_4.index t (0 : Fin 2) * 256 + p.val) :
    (iblk1 V c 0 t : Vec Ideal S256x1024 .f32) (ix2 p k) = (V c main_arg0 : S4096x1024.Idx → EReal) (ix2 P k) := by
  obtain ⟨e0, e1, -⟩ := blockIndex_facts t
  unfold iblk1
  rw [View.read_apply]
  show V c main_arg0 _ = V c main_arg0 _
  congr 1
  funext a
  apply Fin.ext
  match a with
  | ⟨0, _⟩ => show win1_0.index t (0 : Fin 2) * 256 + 1 * p.val = P.val; omega
  | ⟨1, _⟩ => show win1_0.index t (1 : Fin 2) * 1024 + 1 * k.val = k.val; omega

/-- Row `q` of the weight's block at point `t` is row `Q` of the weight array, `Q` being `q` past the result's column
    block. -/
private theorem weightBlock_apply (c : Dev nD) (t : Fin cfg1.N) (q : Fin 512) (k : Fin 1024) (Q : Fin 1024)
    (hQ : Q.val = win1_4.index t (1 : Fin 2) * 512 + q.val) :
    (iblk1 V c 1 t : Vec Ideal S512x1024 .f32) (ix2 q k) = (V c main_v0 : S1024x1024.Idx → EReal) (ix2 Q k) := by
  obtain ⟨-, -, e0, e1, -⟩ := blockIndex_facts t
  unfold iblk1
  rw [View.read_apply]
  show V c main_v0 _ = V c main_v0 _
  congr 1
  funext a
  apply Fin.ext
  match a with
  | ⟨0, _⟩ => show win1_1.index t (0 : Fin 2) * 512 + 1 * q.val = Q.val; omega
  | ⟨1, _⟩ => show win1_1.index t (1 : Fin 2) * 1024 + 1 * k.val = k.val; omega

/-- Column `q` of the bias data's block at point `t` is column `Q` of the bias data. -/
private theorem biasDataBlock_apply (c : Dev nD) (t : Fin cfg1.N) (g : Fin 4) (q : Fin 512) (Q : Fin 1024)
    (hQ : Q.val = win1_4.index t (1 : Fin 2) * 512 + q.val) :
    (iblk1 V c 2 t : Vec Ideal S4x512 .f32) (ix2 g q) = (V c main_arg3 : S4x1024.Idx → EReal) (ix2 g Q) := by
  obtain ⟨-, -, -, -, e0, e1, -⟩ := blockIndex_facts t
  unfold iblk1
  rw [View.read_apply]
  show V c main_arg3 _ = V c main_arg3 _
  congr 1
  funext a
  apply Fin.ext
  match a with
  | ⟨0, _⟩ => show win1_2.index t (0 : Fin 2) * 4 + 1 * g.val = g.val; omega
  | ⟨1, _⟩ => show win1_2.index t (1 : Fin 2) * 512 + 1 * q.val = Q.val; omega

/-- Column `q` of the bias mask's block at point `t` is column `Q` of the bias mask. -/
private theorem biasMaskBlock_apply (c : Dev nD) (t : Fin cfg1.N) (g : Fin 4) (q : Fin 512) (Q : Fin 1024)
    (hQ : Q.val = win1_4.index t (1 : Fin 2) * 512 + q.val) :
    (iblk1 V c 3 t : Vec Ideal S4x512 .f32) (ix2 g q) = (V c main_arg4 : S4x1024.Idx → EReal) (ix2 g Q) := by
  obtain ⟨-, -, -, -, -, -, e0, e1, -⟩ := blockIndex_facts t
  unfold iblk1
  rw [View.read_apply]
  show V c main_arg4 _ = V c main_arg4 _
  congr 1
  funext a
  apply Fin.ext
  match a with
  | ⟨0, _⟩ => show win1_3.index t (0 : Fin 2) * 4 + 1 * g.val = g.val; omega
  | ⟨1, _⟩ => show win1_3.index t (1 : Fin 2) * 512 + 1 * q.val = Q.val; omega

/-! ## From the blocks to the array -/

/-- What point `t` writes back is block `t` of the linear layer of the four arrays as the region finds them. -/
private theorem writeBack_eq (c : Dev nD) (t : Fin cfg1.N) :
    (dat1 V c).flushed 4 t = ((cfg1.win 4).blk t).view.read (Elt Ideal)
      (lin (V c main_arg0) (V c main_v0) (V c main_arg3) (V c main_arg4)) := by
  show (cfg1.win 4).cut (grid1.coords t) ((dat1 V c).after 4 t) = _
  rw [after1_4]
  unfold outsAt1
  rw [stagedBlock_eq (F := Ideal) c (grid1.coords t) (ms1_0 t) (hs1_0 t) (ms1_1 t) (hs1_1 t) (ms1_2 t) (hs1_2 t)
    (ms1_3 t) (hs1_3 t) (ms1_4 t) (hs1_4 t) (hcond1_0 t) (hcond1_1 t)
    (iblk1 V c 0 t) (iblk1 V c 1 t) (iblk1 V c 2 t) (iblk1 V c 3 t)]
  obtain ⟨-, -, -, -, -, -, -, -, b0, b1⟩ := blockIndex_facts t
  funext j
  obtain ⟨p, q, rfl⟩ : ∃ (p : Fin 256) (q : Fin 512), j = ix2 p q := ⟨j 0, j 1, eq_ix2 j⟩
  have hP : win1_4.index t (0 : Fin 2) * 256 + p.val < 4096 := by have := p.isLt; omega
  have hQ : win1_4.index t (1 : Fin 2) * 512 + q.val < 1024 := by have := q.isLt; omega
  refine (stagedBlock_eq_lin (V c main_arg0) (V c main_v0) (V c main_arg3) (V c main_arg4)
    (iblk1 V c 0 t) (iblk1 V c 1 t) (iblk1 V c 2 t) (iblk1 V c 3 t) p q ⟨_, hP⟩ ⟨_, hQ⟩
    (fun k => xBlock_apply V c t p k ⟨_, hP⟩ rfl) (fun k => weightBlock_apply V c t q k ⟨_, hQ⟩ rfl)
    (fun g => biasDataBlock_apply V c t g q ⟨_, hQ⟩ rfl) (fun g => biasMaskBlock_apply V c t g q ⟨_, hQ⟩ rfl)).trans ?_
  rw [View.read_apply]
  show lin _ _ _ _ _ = lin (V c main_arg0) (V c main_v0) (V c main_arg3) (V c main_arg4)
    (((cfg1.win 4).blk t).view.emb (ix2 p q))
  congr 1
  funext a
  apply Fin.ext
  match a with
  | ⟨0, _⟩ => show win1_4.index t (0 : Fin 2) * 256 + p.val = win1_4.index t (0 : Fin 2) * 256 + 1 * p.val; omega
  | ⟨1, _⟩ => show win1_4.index t (1 : Fin 2) * 512 + q.val = win1_4.index t (1 : Fin 2) * 512 + 1 * q.val; omega

/-- An index of the result array is in point `t`'s block iff each coordinate is in the block's range on its axis. -/
private theorem mem_resultBlock (t : Fin cfg1.N) (i : S4096x1024.Idx) :
    i ∈ ((cfg1.win 4).blk t).view.set ↔ ∀ a : Fin 2, win1_4.index t a * S256x512.size a ≤ (i a).val
      ∧ (i a).val < win1_4.index t a * S256x512.size a + S256x512.size a := by
  show i ∈ ((View.whole main_v1).slice (win1_4.rect t)).set ↔ _
  rw [View.set_slice_whole, Rect.mem_set_unit]
  exact Iff.rfl

/-- Every index (r, s) of the result array is in a block that is written back: the block (r / 256, s / 512). -/
private theorem resultBlocks_cover (i : S4096x1024.Idx) :
    ∃ t : Fin cfg1.N, (cfg1.win 4).flush t = true ∧ i ∈ ((cfg1.win 4).blk t).view.set := by
  have hi0 : (i 0).val < 4096 := (i 0).isLt
  have hi1 : (i 1).val < 1024 := (i 1).isLt
  obtain ⟨t, ht⟩ := blockIndex_onto ⟨(i 0).val / 256, by omega⟩ ⟨(i 1).val / 512, by omega⟩
  have q0 : win1_4.index t (0 : Fin 2) = (i 0).val / 256 := congrFun ht 0
  have q1 : win1_4.index t (1 : Fin 2) = (i 1).val / 512 := congrFun ht 1
  refine ⟨t, flush1_4 t, ?_⟩
  rw [mem_resultBlock]
  intro a
  match a with
  | ⟨0, _⟩ =>
    show win1_4.index t (0 : Fin 2) * 256 ≤ (i 0).val ∧ (i 0).val < win1_4.index t (0 : Fin 2) * 256 + 256; omega
  | ⟨1, _⟩ =>
    show win1_4.index t (1 : Fin 2) * 512 ≤ (i 1).val ∧ (i 1).val < win1_4.index t (1 : Fin 2) * 512 + 512; omega

/-- After the matmul region, entered at contents `V`, its result array is the linear layer of `x` against the weight array
    it found, plus the gated bias. -/
theorem final (c : Dev nD) :
    (dat1 V c).arrAt 4 cfg1.N = Cert.Spec.lin (V c main_arg0) (V c main_v0) (V c main_arg3) (V c main_arg4) :=
  (dat1 V c).arrAt_eq_of_cover 4 (lin (V c main_arg0) (V c main_v0) (V c main_arg3) (V c main_arg4))
    (fun t _ => writeBack_eq V c t) resultBlocks_cover

end Cert.ReferenceIdeal.Output

end
-- ==== Proof.ReferenceValue.lean ====
/-
  The reference's result array, over the extended reals.

  Its first region leaves the effective weight in an intermediate array; its second region, which finds `x` and the
  biases as launched and that intermediate array as the first region left it, leaves the linear layer of `x` against
  it plus the gated bias. Composed: the layer's output of the argument arrays.
-/
import proofs.«159003_g2000604218572491_pallasbulk_1250_7_alg».proof.Proof.ReferenceRun
import proofs.«159003_g2000604218572491_pallasbulk_1250_7_alg».proof.Proof.ReferenceWeights
import proofs.«159003_g2000604218572491_pallasbulk_1250_7_alg».proof.Proof.ReferenceOutput
import proofs.«159003_g2000604218572491_pallasbulk_1250_7_alg».proof.Proof.Spec

noncomputable section

open Idealize.ShloMosaic Idealize.ShloMosaic.TcCoe Idealize.SL.Sem
open Idealize.ShloMosaic.Pipeline (Dat)

namespace Cert.ReferenceIdeal.Val

open Cert.ReferenceIdeal Cert.ReferenceIdeal.Gen

variable (m : (ℓ : Loc nD τ sig) → Buf (Elt Ideal) ℓ) (ρ : Dev nD → PrngReg)

/-- The layer's output of the argument arrays. -/
abbrev result (c : Dev nD) : Vec Ideal S4096x1024 .f32 :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4))

/-- What the second region finds: `x` and the two bias arrays as launched (the first region does not write them), -/
theorem entry_x (c : Dev nD) : V1 m ρ c main_arg0 = m ((c : Thread nD τ).loc main_arg0) :=
  (W1_of_ne m ρ c main_arg0 (by decide)).trans rfl
theorem entry_bd (c : Dev nD) : V1 m ρ c main_arg3 = m ((c : Thread nD τ).loc main_arg3) :=
  (W1_of_ne m ρ c main_arg3 (by decide)).trans rfl
theorem entry_bm (c : Dev nD) : V1 m ρ c main_arg4 = m ((c : Thread nD τ).loc main_arg4) :=
  (W1_of_ne m ρ c main_arg4 (by decide)).trans rfl
/-- and the intermediate array at the effective weight of the two weight arrays as launched. -/
theorem entry_w (c : Dev nD) :
    V1 m ρ c main_v0 = Cert.Spec.weffArr (m ((c : Thread nD τ).loc main_arg1)) (m ((c : Thread nD τ).loc main_arg2)) :=
  (W1_arr m ρ c 2).trans (Weights.final (V0 m ρ) c)

/-- So the result array ends holding the layer's output. -/
theorem final (c : Dev nD) : (dat1 (V1 m ρ) c).arrAt 4 cfg1.N = result m c := by
  rw [Output.final (V1 m ρ) c, entry_x, entry_w, entry_bd, entry_bm]
  rfl

/-- The reference's run, read: the result at the layer's output, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m ρ c), (h c).2⟩) (Run.run_named m ρ)

end Cert.ReferenceIdeal.Val

end
-- ==== Proof.lean ====
/-
  A linear layer with a grouped, gated weight and bias:
      y[p, q] = (Σ_k x[p, k] · W[q, k]) + b[q],   W[r, k] = Σ_g wd[g, r, k] · logistic (−wm[g, r, k]),
      b[r] = Σ_g bd[g, r] · logistic (−bm[g, r]).
  The kernel computes it in one pass over a (stripe, tile) grid, collapsing each stripe's weights once into a scratch
  it carries across the stripe's tiles; the reference collapses the whole weight first and multiplies afterwards, its
  output block zeroed, accumulated into once, and the bias added. Over the extended reals a change of float format is
  the identity and `0 + a = a`, so both leave the same array (Proof/Spec.lean's `out`): the kernel's side is
  Proof/KernelValue.lean, the reference's Proof/ReferenceValue.lean. No law needs the inputs finite, so the
  precondition is never opened. The three frames are the generated ones; the idealization rewrote nothing.
-/
import proofs.«159003_g2000604218572491_pallasbulk_1250_7_alg».proof.Defs
import proofs.«159003_g2000604218572491_pallasbulk_1250_7_alg».proof.Proof.Gen.Kernel
import proofs.«159003_g2000604218572491_pallasbulk_1250_7_alg».proof.Proof.Gen.Kernel.Frame
import proofs.«159003_g2000604218572491_pallasbulk_1250_7_alg».proof.Proof.Gen.KernelIdeal
import proofs.«159003_g2000604218572491_pallasbulk_1250_7_alg».proof.Proof.Gen.KernelIdeal.Frame
import proofs.«159003_g2000604218572491_pallasbulk_1250_7_alg».proof.Proof.Gen.ReferenceIdeal
import proofs.«159003_g2000604218572491_pallasbulk_1250_7_alg».proof.Proof.Gen.ReferenceIdeal.Frame
import proofs.«159003_g2000604218572491_pallasbulk_1250_7_alg».proof.Proof.Gen.Pre_finite_inputs
import proofs.«159003_g2000604218572491_pallasbulk_1250_7_alg».proof.Proof.KernelValue
import proofs.«159003_g2000604218572491_pallasbulk_1250_7_alg».proof.Proof.ReferenceValue
import Idealize.ShloMosaic.Adequacy
import Idealize.ShloMosaic.Init

noncomputable section

namespace Cert.Proof

open Idealize.ShloMosaic Idealize.SL.Sem

/-- Both programs, run from memories that agree on the five arguments, end with the layer's output of those
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Val.run m' ρ')
  obtain ⟨h0, h1, h2, h3, h4⟩ := hagree c
  show Cert.Spec.out _ _ _ _ _ = Cert.Spec.out _ _ _ _ _
  rw [h0, h1, h2, h3, h4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
